-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256 .f32) (main_arg6 : FVec F S256x128 .f32) (main_arg7 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 121
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000, .f32⟩
  | .hbm, ⟨42, _⟩ => ⟨S50000x1, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S800000x1, .f32⟩
  | .hbm, ⟨54, _⟩ => ⟨S800000x256, .f32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x256, .f32⟩
  | .hbm, ⟨79, _⟩ => ⟨S800000x1, .f32⟩
  | .hbm, ⟨80, _⟩ => ⟨S800000x256, .f32⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000x256, .f32⟩
  | .hbm, ⟨94, _⟩ => ⟨S50000x256, .f32⟩
  | .hbm, ⟨95, _⟩ => ⟨S50000x128, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x128, .f32⟩
  | .hbm, ⟨105, _⟩ => ⟨S800000x1, .f32⟩
  | .hbm, ⟨106, _⟩ => ⟨S800000x128, .f32⟩
  | .hbm, ⟨107, _⟩ => ⟨S800000x128, .f32⟩
  | .hbm, ⟨108, _⟩ => ⟨S_, .f32⟩
  | .hbm, ⟨109, _⟩ => ⟨S50000x128, .f32⟩
  | .hbm, ⟨110, _⟩ => ⟨S800000x1, .i32⟩
  | .hbm, ⟨111, _⟩ => ⟨S50000x128, .f32⟩
  | .hbm, ⟨112, _⟩ => ⟨S50000x128, .f32⟩
  | .hbm, ⟨113, _⟩ => ⟨S50000x128, .f32⟩
  | .hbm, ⟨114, _⟩ => ⟨S50000x128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call1_cst : Ref sig .tc := ⟨.hbm, 92, rfl⟩
abbrev main_call1_v0 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call2_cst : Ref sig .tc := ⟨.hbm, 118, rfl⟩
abbrev main_call2_v0 : Ref sig .tc := ⟨.hbm, 119, rfl⟩
abbrev main_v90 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000, .f32⟩
  | .hbm, ⟨42, _⟩ => ⟨S50000x1, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S800000x1, .f32⟩
  | .hbm, ⟨54, _⟩ => ⟨S800000x256, .f32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x256, .f32⟩
  | .hbm, ⟨79, _⟩ => ⟨S800000x1, .f32⟩
  | .hbm, ⟨80, _⟩ => ⟨S800000x256, .f32⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000x256, .f32⟩
  | .hbm, ⟨94, _⟩ => ⟨S50000x256, .f32⟩
  | .hbm, ⟨95, _⟩ => ⟨S50000x128, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x128, .f32⟩
  | .hbm, ⟨105, _⟩ => ⟨S800000x1, .f32⟩
  | .hbm, ⟨106, _⟩ => ⟨S800000x128, .f32⟩
  | .hbm, ⟨107, _⟩ => ⟨S800000x128, .f32⟩
  | .hbm, ⟨108, _⟩ => ⟨S_, .f32⟩
  | .hbm, ⟨109, _⟩ => ⟨S50000x128, .f32⟩
  | .hbm, ⟨110, _⟩ => ⟨S800000x1, .i32⟩
  | .hbm, ⟨111, _⟩ => ⟨S50000x128, .f32⟩
  | .hbm, ⟨112, _⟩ => ⟨S50000x128, .f32⟩
  | .hbm, ⟨113, _⟩ => ⟨S50000x128, .f32⟩
  | .hbm, ⟨114, _⟩ => ⟨S50000x128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call1_cst : Ref sig .tc := ⟨.hbm, 92, rfl⟩
abbrev main_call1_v0 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call2_cst : Ref sig .tc := ⟨.hbm, 118, rfl⟩
abbrev main_call2_v0 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.HostLayers.lean ====
/-
  The graph side of a layer, as functions of what it reads.

  From the edge list the program first computes, once: the source and destination node of every edge; the inverse
  square root of every node's degree (its in-edges counted by a scatter-add of ones, plus one for the self loop); the
  weight of every edge, the product of the two values at its ends (read by a gather, a negative index counted from the
  end); and the self-loop weight of every node, the square of its value. Then each layer takes a projected feature
  matrix `h`, gathers the source rows, scales each by its edge's weight, adds them into the destination rows, adds
  `h` scaled by the self-loop weights and the bias, and clamps below at zero. These are the operations both programs
  print on the host, written here once over the printed program's shapes and dimension records.
-/
import proofs.«158755_j67774583931071_1_alg».proof.KernelIdeal
import proofs.«158755_j67774583931071_1_alg».proof.Proof.Gen.KernelIdeal

noncomputable section

namespace Cert.KernelIdeal.Layers

open Cert.KernelIdeal Idealize.ShloMosaic Idealize.SL.Sem
open Cert.KernelIdeal.Facts₀

variable {F : FTy → Type} [FloatOps F]

/-- The source node of every edge: row 0 of the edge list. -/
def edgeSrc (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The destination node of every edge: row 1 of the edge list. -/
def edgeDst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- A node index below zero counts from the end: 50000 is added to it. -/
def wrapIdx (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- `1 / sqrt(deg + 1)` per node, `deg` the number of edges that end at it. -/
def invSqrtDeg (dst : (⟨S800000, .i32⟩ : BufTy).Contents (Elt F)) : (⟨S50000, .f32⟩ : BufTy).Contents (Elt F) :=
  Host.rsqrt (addf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32)))

/-- The weight of every edge: the product of the two end nodes' values. -/
def edgeNorm (src dst : (⟨S800000, .i32⟩ : BufTy).Contents (Elt F)) : (⟨S800000, .f32⟩ : BufTy).Contents (Elt F) :=
  mulf
    (Host.gather gather_S50000_S800000x1_S800000_n_0_n_n_0_1_1 (invSqrtDeg dst)
      (broadcastInDim S800000x1 ![0] bcast_S800000_S800000x1_0 (wrapIdx src)))
    (Host.gather gather_S50000_S800000x1_S800000_n_0_n_n_0_1_1 (invSqrtDeg dst)
      (broadcastInDim S800000x1 ![0] bcast_S800000_S800000x1_0 (wrapIdx dst)))

/-- The self-loop weight of every node, as a column. -/
def selfNorm (dst : (⟨S800000, .i32⟩ : BufTy).Contents (Elt F)) : (⟨S50000x1, .f32⟩ : BufTy).Contents (Elt F) :=
  broadcastInDim S50000x1 ![0] bcast_S50000_S50000x1_0 (mulf (invSqrtDeg dst) (invSqrtDeg dst))

/-- A layer of width 256 after its projection `h`: aggregate over the edges, add the self loop and the bias, clamp. -/
def layer256 (h : (⟨S50000x256, .f32⟩ : BufTy).Contents (Elt F)) (src dst : (⟨S800000, .i32⟩ : BufTy).Contents (Elt F))
    (en : (⟨S800000, .f32⟩ : BufTy).Contents (Elt F)) (sn : (⟨S50000x1, .f32⟩ : BufTy).Contents (Elt F))
    (b : (⟨S256, .f32⟩ : BufTy).Contents (Elt F)) : (⟨S50000x256, .f32⟩ : BufTy).Contents (Elt F) :=
  maximumf
    (addf
      (addf
        (Host.scatterAdd scatter_S50000x256_S800000x1_S800000x256_1_0_0_1
          (broadcastInDim S50000x256 ![] bcast_S_S50000x256 (constant S_ .f32 0x00000000#32))
          (broadcastInDim S800000x1 ![0] bcast_S800000_S800000x1_0 dst)
          (mulf
            (Host.gather gather_S50000x256_S800000x1_S800000x256_1_0_n_n_0_1_1256 h
              (broadcastInDim S800000x1 ![0] bcast_S800000_S800000x1_0 (wrapIdx src)))
            (broadcastInDim S800000x256 ![0, 1] bcast_S800000x1_S800000x256_0_1
              (broadcastInDim S800000x1 ![0] bcast_S800000_S800000x1_0 en))))
        (mulf h (broadcastInDim S50000x256 ![0, 1] bcast_S50000x1_S50000x256_0_1 sn)))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The layer of width 128 after its projection `h`: the same operations at the last layer's width. -/
def layer128 (h : (⟨S50000x128, .f32⟩ : BufTy).Contents (Elt F)) (src dst : (⟨S800000, .i32⟩ : BufTy).Contents (Elt F))
    (en : (⟨S800000, .f32⟩ : BufTy).Contents (Elt F)) (sn : (⟨S50000x1, .f32⟩ : BufTy).Contents (Elt F))
    (b : (⟨S128, .f32⟩ : BufTy).Contents (Elt F)) : (⟨S50000x128, .f32⟩ : BufTy).Contents (Elt F) :=
  maximumf
    (addf
      (addf
        (Host.scatterAdd scatter_S50000x128_S800000x1_S800000x128_1_0_0_1
          (broadcastInDim S50000x128 ![] bcast_S_S50000x128 (constant S_ .f32 0x00000000#32))
          (broadcastInDim S800000x1 ![0] bcast_S800000_S800000x1_0 dst)
          (mulf
            (Host.gather gather_S50000x128_S800000x1_S800000x128_1_0_n_n_0_1_1128 h
              (broadcastInDim S800000x1 ![0] bcast_S800000_S800000x1_0 (wrapIdx src)))
            (broadcastInDim S800000x128 ![0, 1] bcast_S800000x1_S800000x128_0_1
              (broadcastInDim S800000x1 ![0] bcast_S800000_S800000x1_0 en))))
        (mulf h (broadcastInDim S50000x128 ![0, 1] bcast_S50000x1_S50000x128_0_1 sn)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

end Cert.KernelIdeal.Layers

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Product.lean ====
/-
  The product of two matrices of extended reals, element by element, and the two printed operations that compute it.

  For `A : [M, K]` and `B : [K, N]` the product has `(A · B)[p, q] = ∑ₖ A[p, k] · B[k, q]`, the sum over the `K`
  positions of the contracted axis taken on the extended reals (where `+` and `·` are commutative and associative, so
  no order of the sum is singled out). A host `dot_general` that contracts the left operand's second axis with the
  right operand's first, with no batch axis, is this product.
-/
import Idealize.ShloMosaic.Lib.ValueIdx
import Idealize.ShloMosaic.PureOps.Ideal.Laws
import proofs.«158755_j67774583931071_1_alg».proof.Proof.LibPlainDot

noncomputable section

open scoped BigOperators

namespace Cert.Hand

open Idealize.ShloMosaic Idealize.ShloMosaic.ValueIdx

/-- `(A · B)[p, q] = ∑ₖ A[p, k] · B[k, q]`. -/
def matProd {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The product at the index built from a row `p` and a column `q`. -/
theorem matProd_apply {M K N : Nat} (A : (⟨2, ![M, K]⟩ : Shape).Idx → EReal) (B : (⟨2, ![K, N]⟩ : Shape).Idx → EReal)
    (p : Fin M) (q : Fin N) : matProd A B (ix2 p q) = ∑ k : Fin K, A (ix2 p k) * B (ix2 k q) := rfl

/-- A host `dot_general` contracting the left operand's columns with the right operand's rows is the product. -/
theorem dotGeneral_eq_matProd {M K N : Nat} (d : DotDims ⟨2, ![M, K]⟩ ⟨2, ![K, N]⟩ ⟨2, ![M, N]⟩)
    (hlb : d.lhsBatch = []) (hrb : d.rhsBatch = []) (hln : d.lhsNonContracting = [0])
    (hrn : d.rhsNonContracting = [1]) (hlc : d.lhsContracting = [1]) (hrc : d.rhsContracting = [0])
    (hr : d.contr.rank = 1) (hs : d.contr.size ⟨0, by omega⟩ = K)
    (prec : Option ContractPrecision) (A : FVec Ideal ⟨2, ![M, K]⟩ .f32) (B : FVec Ideal ⟨2, ![K, N]⟩ .f32) :
    Host.dotGeneral d prec A B = matProd A B := by
  funext j
  obtain ⟨p, q, rfl⟩ : ∃ (p : Fin M) (q : Fin N), j = ix2 p q := ⟨j 0, j 1, eq_ix2 j⟩
  exact PlainDot.dotGeneral_apply d hlb hrb hln hrn hlc hrc hr hs prec A B p q

end Cert.Hand

end
-- ==== Proof.Model.lean ====
/-
  The function both programs compute, on the extended reals: three graph-convolution layers, each the product of its
  input with the layer's weights followed by the layer's graph side (aggregation over the edges with the edge
  weights, the self loop, the bias, the clamp at zero), all three over the same edge quantities.
-/
import proofs.«158755_j67774583931071_1_alg».proof.Proof.HostLayers
import proofs.«158755_j67774583931071_1_alg».proof.Proof.Product

noncomputable section

namespace Cert.KernelIdeal.Layers

open Cert.KernelIdeal Cert.Hand Idealize.ShloMosaic

/-- `layer₃ (layer₂ (layer₁ (x · W₁) · W₂) · W₃)` over the edge list `e`. -/
def gcn (x : (⟨S50000x128, .f32⟩ : BufTy).Contents (Elt Ideal)) (e : (⟨S2x800000, .i32⟩ : BufTy).Contents (Elt Ideal))
    (w1 : (⟨S128x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal))
    (w3 : (⟨S256x128, .f32⟩ : BufTy).Contents (Elt Ideal)) (b3 : (⟨S128, .f32⟩ : BufTy).Contents (Elt Ideal)) :
    (⟨S50000x128, .f32⟩ : BufTy).Contents (Elt Ideal) :=
  layer128
    (matProd (M := 50000) (K := 256) (N := 128)
      (layer256
        (matProd (M := 50000) (K := 256) (N := 256)
          (layer256 (matProd (M := 50000) (K := 128) (N := 256) x w1)
            (edgeSrc e) (edgeDst e) (edgeNorm (edgeSrc e) (edgeDst e)) (selfNorm (edgeDst e)) b1)
          w2)
        (edgeSrc e) (edgeDst e) (edgeNorm (edgeSrc e) (edgeDst e)) (selfNorm (edgeDst e)) b2)
      w3)
    (edgeSrc e) (edgeDst e) (edgeNorm (edgeSrc e) (edgeDst e)) (selfNorm (edgeDst e)) b3

end Cert.KernelIdeal.Layers

end
-- ==== Proof.Project0.lean ====
/-
  The first layer's projection. The first launch walks the node rows in ten blocks of 5000; at each block the body
  multiplies the block's rows of the node features by the whole weight matrix (the two roundings to bf16 on the way
  into the multiplier are the identity on the ideal values, and the accumulator starts at zero), and writes the
  5000 × 256 result back to the same rows of the output. So whatever the two arrays hold when the launch is entered,
  the output array ends holding their product: row r of the output is written by block r / 5000.
-/
import proofs.«158755_j67774583931071_1_alg».proof.Proof.Gen.KernelIdeal.Frame
import proofs.«158755_j67774583931071_1_alg».proof.Proof.Product
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Project0

open Cert.KernelIdeal Cert.KernelIdeal.Gen Cert.Hand

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the row of the loaded feature block against the
    column of the loaded weights. -/
theorem pay_apply (x0 : Vec Ideal S5000x128 .f32) (x1 : Vec Ideal S128x256 .f32) (p : Fin 5000) (q : Fin 256) :
    k0_pay1 x0 x1 (ix2 p q) = ∑ k : Fin 128, x0 (ix2 p k) * x1 (ix2 k q) := by
  unfold k0_pay1
  exact PlainDot.matmul_zero_apply (M := 5000) (K := 128) (N := 256) dot_S5000x128_S128x256_S5000x256_1_0_0_1_n_n
    rfl rfl rfl rfl rfl rfl rfl rfl none _ _ p q

/-- The block indices of the three windows at a point: the feature and output windows move down the rows with the
    point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem N_eq : cfg0.N = 10 := N_0

/-- The feature window's block at point `t` is rows `5000 t … 5000 t + 4999` of the feature array. -/
theorem lhs_block (c : Dev nD) (t : Fin cfg0.N) (p : Fin 5000) (k : Fin 128) (r : Fin 50000)
    (hr : r.val = 5000 * t.val + p.val) :
    (iblk0 V c 0 t : Vec Ideal S5000x128 .f32) (ix2 p k) = (V c main_arg0 : S50000x128.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight window's block at every point is the whole weight array. -/
theorem rhs_block (c : Dev nD) (t : Fin cfg0.N) (k : Fin 128) (q : Fin 256) :
    (iblk0 V c 1 t : Vec Ideal S128x256 .f32) (ix2 k q) = (V c main_arg2 : S128x256.Idx → EReal) (ix2 k q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- What point `t` writes back is block `t` of the product of the two entry arrays. -/
theorem flushed_eq (c : Dev nD) (t : Fin cfg0.N) :
    (dat0 V c).flushed 2 t
      = ((cfg0.win 2).blk t).view.read (Elt Ideal) (matProd (V c main_arg0 : S50000x128.Idx → EReal) (V c main_arg2 : S128x256.Idx → EReal)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨-, -, -, -, e4, e5⟩ := idx_facts t
  have ht : t.val < 10 := by have h := t.isLt; have e : cfg0.N = 10 := N_eq; omega
  funext j
  obtain ⟨p, q, rfl⟩ : ∃ (p : Fin 5000) (q : Fin 256), j = ix2 p q := ⟨j 0, j 1, eq_ix2 j⟩
  have hp : p.val < 5000 := p.isLt
  let r : Fin 50000 := ⟨5000 * t.val + p.val, by omega⟩
  have hemb : ((cfg0.win 2).blk t).view.emb (ix2 p q) = (ix2 r q : S50000x256.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 256 + 1 * q.val = q.val; rw [e5]; omega
  show k0_pay1 (iblk0 V c 0 t) (iblk0 V c 1 t) (ix2 p q) = matProd _ _ (((cfg0.win 2).blk t).view.emb (ix2 p q))
  rw [hemb, matProd_apply]
  refine (pay_apply _ _ p q).trans (Finset.sum_congr rfl fun k _ => ?_)
  rw [lhs_block V c t p k r rfl, rhs_block V c t k q]

/-- An index of the output array is in point `t`'s block iff its row is among the block's rows. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v28).slice (win0_2.rect t)).set ↔ _
  rw [View.set_slice_whole, Rect.mem_set_unit]
  exact Iff.rfl

/-- The output array after the launch is the product of the two arrays as the launch found them. -/
theorem product (c : Dev nD) :
    (dat0 V c).arrAt 2 cfg0.N = matProd (V c main_arg0 : S50000x128.Idx → EReal) (V c main_arg2 : S128x256.Idx → EReal) :=
  (dat0 V c).arrAt_eq_of_cover 2 _ (fun t _ => flushed_eq V c t) fun i => by
    have hi0 : (i 0).val < 50000 := (i 0).isLt
    have hi1 : (i 1).val < 256 := (i 1).isLt
    let t : Fin cfg0.N := ⟨(i 0).val / 5000, by rw [N_eq]; omega⟩
    obtain ⟨-, -, -, -, e4, e5⟩ := idx_facts t
    refine ⟨t, flush0_2 t, ?_⟩
    rw [mem_blk]
    intro a
    match a with
    | ⟨0, _⟩ => show win0_2.index t (0 : Fin 2) * 5000 ≤ (i 0).val ∧ (i 0).val < win0_2.index t (0 : Fin 2) * 5000 + 5000; rw [e4]; show (i 0).val / 5000 * 5000 ≤ _ ∧ _ < (i 0).val / 5000 * 5000 + 5000; omega
    | ⟨1, _⟩ => show win0_2.index t (1 : Fin 2) * 256 ≤ (i 1).val ∧ (i 1).val < win0_2.index t (1 : Fin 2) * 256 + 256; rw [e5]; omega

end Cert.KernelIdeal.Project0

end
-- ==== Proof.Project1.lean ====
/-
  The second layer's projection. The second launch walks the 50000 rows of the first layer's output in ten blocks of
  5000; at each block the body multiplies the block's rows by the whole 256 × 256 weight matrix (the roundings to bf16
  on the way into the multiplier are the identity on the ideal values, the reshape to the same shape changes nothing,
  and the accumulator starts at zero), and writes the 5000 × 256 result back to the same rows of the output. So
  whatever the two arrays hold when the launch is entered, the output array ends holding their product.
-/
import proofs.«158755_j67774583931071_1_alg».proof.Proof.Gen.KernelIdeal.Frame
import proofs.«158755_j67774583931071_1_alg».proof.Proof.Product
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Project1

open Cert.KernelIdeal Cert.KernelIdeal.Gen Cert.Hand

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the row of the loaded activations against the
    column of the loaded weights. -/
theorem pay_apply (x0 : Vec Ideal S5000x256 .f32) (x1 : Vec Ideal S256x256 .f32) (p : Fin 5000) (q : Fin 256) :
    k1_pay1 x0 x1 (ix2 p q) = ∑ k : Fin 256, x0 (ix2 p k) * x1 (ix2 k q) := by
  unfold k1_pay1
  refine (PlainDot.matmul_zero_apply (M := 5000) (K := 256) (N := 256) dot_S5000x256_S256x256_S5000x256_1_0_0_1_n_n
    rfl rfl rfl rfl rfl rfl rfl rfl none _ _ p q).trans ?_
  refine Finset.sum_congr rfl fun k _ => ?_
  show shapeCast S5000x256 x0 shapeCasts_S5000x256_S5000x256 (ix2 p k) * x1 (ix2 k q) = _
  rw [shapeCast_self]

/-- The block indices of the three windows at a point: the activation and output windows move down the rows with the
    point, the weight window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem N_eq : cfg1.N = 10 := N_1

/-- The activation window's block at point `t` is rows `5000 t … 5000 t + 4999` of the activation array. -/
theorem lhs_block (c : Dev nD) (t : Fin cfg1.N) (p : Fin 5000) (k : Fin 256) (r : Fin 50000)
    (hr : r.val = 5000 * t.val + p.val) :
    (iblk1 V c 0 t : Vec Ideal S5000x256 .f32) (ix2 p k) = (V c main_v48 : S50000x256.Idx → EReal) (ix2 r k) := by
  obtain ⟨e0, e1, -⟩ := idx_facts t
  unfold iblk1
  rw [View.read_apply]
  show V c main_v48 _ = V c main_v48 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 256 + 1 * k.val = k.val; rw [e1]; omega

/-- The weight window's block at every point is the whole weight array. -/
theorem rhs_block (c : Dev nD) (t : Fin cfg1.N) (k : Fin 256) (q : Fin 256) :
    (iblk1 V c 1 t : Vec Ideal S256x256 .f32) (ix2 k q) = (V c main_arg4 : S256x256.Idx → EReal) (ix2 k q) := by
  obtain ⟨-, -, e2, e3, -⟩ := idx_facts t
  unfold iblk1
  rw [View.read_apply]
  show V c main_arg4 _ = V c main_arg4 _
  congr 1
  funext a
  apply Fin.ext
  match a with
  | ⟨0, _⟩ => show win1_1.index t (0 : Fin 2) * 256 + 1 * k.val = k.val; rw [e2]; omega
  | ⟨1, _⟩ => show win1_1.index t (1 : Fin 2) * 256 + 1 * q.val = q.val; rw [e3]; omega

/-- What point `t` writes back is block `t` of the product of the two entry arrays. -/
theorem flushed_eq (c : Dev nD) (t : Fin cfg1.N) :
    (dat1 V c).flushed 2 t
      = ((cfg1.win 2).blk t).view.read (Elt Ideal) (matProd (V c main_v48 : S50000x256.Idx → EReal) (V c main_arg4 : S256x256.Idx → EReal)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  obtain ⟨-, -, -, -, e4, e5⟩ := idx_facts t
  have ht : t.val < 10 := by have h := t.isLt; have e : cfg1.N = 10 := N_eq; omega
  funext j
  obtain ⟨p, q, rfl⟩ : ∃ (p : Fin 5000) (q : Fin 256), j = ix2 p q := ⟨j 0, j 1, eq_ix2 j⟩
  have hp : p.val < 5000 := p.isLt
  let r : Fin 50000 := ⟨5000 * t.val + p.val, by omega⟩
  have hemb : ((cfg1.win 2).blk t).view.emb (ix2 p q) = (ix2 r q : S50000x256.Idx) := by
    funext a
    apply Fin.ext
    match a with
    | ⟨0, _⟩ => show win1_2.index t (0 : Fin 2) * 5000 + 1 * p.val = 5000 * t.val + p.val; rw [e4]; omega
    | ⟨1, _⟩ => show win1_2.index t (1 : Fin 2) * 256 + 1 * q.val = q.val; rw [e5]; omega
  show k1_pay1 (iblk1 V c 0 t) (iblk1 V c 1 t) (ix2 p q) = matProd _ _ (((cfg1.win 2).blk t).view.emb (ix2 p q))
  rw [hemb, matProd_apply]
  refine (pay_apply _ _ p q).trans (Finset.sum_congr rfl fun k _ => ?_)
  rw [lhs_block V c t p k r rfl, rhs_block V c t k q]

/-- An index of the output array is in point `t`'s block iff its row is among the block's rows. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v49).slice (win1_2.rect t)).set ↔ _
  rw [View.set_slice_whole, Rect.mem_set_unit]
  exact Iff.rfl

/-- The output array after the launch is the product of the two arrays as the launch found them. -/
theorem product (c : Dev nD) :
    (dat1 V c).arrAt 2 cfg1.N = matProd (V c main_v48 : S50000x256.Idx → EReal) (V c main_arg4 : S256x256.Idx → EReal) :=
  (dat1 V c).arrAt_eq_of_cover 2 _ (fun t _ => flushed_eq V c t) fun i => by
    have hi0 : (i 0).val < 50000 := (i 0).isLt
    have hi1 : (i 1).val < 256 := (i 1).isLt
    let t : Fin cfg1.N := ⟨(i 0).val / 5000, by rw [N_eq]; omega⟩
    obtain ⟨-, -, -, -, e4, e5⟩ := idx_facts t
    refine ⟨t, flush1_2 t, ?_⟩
    rw [mem_blk]
    intro a
    match a with
    | ⟨0, _⟩ => show win1_2.index t (0 : Fin 2) * 5000 ≤ (i 0).val ∧ (i 0).val < win1_2.index t (0 : Fin 2) * 5000 + 5000; rw [e4]; show (i 0).val / 5000 * 5000 ≤ _ ∧ _ < (i 0).val / 5000 * 5000 + 5000; omega
    | ⟨1, _⟩ => show win1_2.index t (1 : Fin 2) * 256 ≤ (i 1).val ∧ (i 1).val < win1_2.index t (1 : Fin 2) * 256 + 256; rw [e5]; omega

end Cert.KernelIdeal.Project1

end
-- ==== Proof.Project2.lean ====
/-
  The third layer's projection. The third launch walks the 50000 rows of the second layer's output in ten blocks of
  5000; at each block the body multiplies the block's rows by the whole 256 × 128 weight matrix (the roundings to bf16
  on the way into the multiplier are the identity on the ideal values, the reshape to the same shape changes nothing,
  and the accumulator starts at zero), and writes the 5000 × 128 result back to the same rows of the output. So
  whatever the two arrays hold when the launch is entered, the output array ends holding their product.
-/
import proofs.«158755_j67774583931071_1_alg».proof.Proof.Gen.KernelIdeal.Frame
import proofs.«158755_j67774583931071_1_alg».proof.Proof.Product
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Project2

open Cert.KernelIdeal Cert.KernelIdeal.Gen Cert.Hand

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the row of the loaded activations against the
    column of the loaded weights. -/
theorem pay_apply (x0 : Vec Ideal S5000x256 .f32) (x1 : Vec Ideal S256x128 .f32) (p : Fin 5000) (q : Fin 128) :
    k2_pay1 x0 x1 (ix2 p q) = ∑ k : Fin 256, x0 (ix2 p k) * x1 (ix2 k q) := by
  unfold k2_pay1
  refine (PlainDot.matmul_zero_apply (M := 5000) (K := 256) (N := 128) dot_S5000x256_S256x128_S5000x128_1_0_0_1_n_n
    rfl rfl rfl rfl rfl rfl rfl rfl none _ _ p q).trans ?_
  refine Finset.sum_congr rfl fun k _ => ?_
  show shapeCast S5000x256 x0 shapeCasts_S5000x256_S5000x256 (ix2 p k) * x1 (ix2 k q) = _
  rw [shapeCast_self]

/-- The block indices of the three windows at a point: the activation and output windows move down the rows with the
    point, the weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem N_eq : cfg2.N = 10 := N_2

/-- The activation window's block at point `t` is rows `5000 t … 5000 t + 4999` of the activation array. -/
theorem lhs_block (c : Dev nD) (t : Fin cfg2.N) (p : Fin 5000) (k : Fin 256) (r : Fin 50000)
    (hr : r.val = 5000 * t.val + p.val) :
    (iblk2 V c 0 t : Vec Ideal S5000x256 .f32) (ix2 p k) = (V c main_v69 : S50000x256.Idx → EReal) (ix2 r k) := by
  obtain ⟨e0, e1, -⟩ := idx_facts t
  unfold iblk2
  rw [View.read_apply]
  show V c main_v69 _ = V c main_v69 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 256 + 1 * k.val = k.val; rw [e1]; omega

/-- The weight window's block at every point is the whole weight array. -/
theorem rhs_block (c : Dev nD) (t : Fin cfg2.N) (k : Fin 256) (q : Fin 128) :
    (iblk2 V c 1 t : Vec Ideal S256x128 .f32) (ix2 k q) = (V c main_arg6 : S256x128.Idx → EReal) (ix2 k q) := by
  obtain ⟨-, -, e2, e3, -⟩ := idx_facts t
  unfold iblk2
  rw [View.read_apply]
  show V c main_arg6 _ = V c main_arg6 _
  congr 1
  funext a
  apply Fin.ext
  match a with
  | ⟨0, _⟩ => show win2_1.index t (0 : Fin 2) * 256 + 1 * k.val = k.val; rw [e2]; omega
  | ⟨1, _⟩ => show win2_1.index t (1 : Fin 2) * 128 + 1 * q.val = q.val; rw [e3]; omega

/-- What point `t` writes back is block `t` of the product of the two entry arrays. -/
theorem flushed_eq (c : Dev nD) (t : Fin cfg2.N) :
    (dat2 V c).flushed 2 t
      = ((cfg2.win 2).blk t).view.read (Elt Ideal) (matProd (V c main_v69 : S50000x256.Idx → EReal) (V c main_arg6 : S256x128.Idx → EReal)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x128) hz]
  obtain ⟨-, -, -, -, e4, e5⟩ := idx_facts t
  have ht : t.val < 10 := by have h := t.isLt; have e : cfg2.N = 10 := N_eq; omega
  funext j
  obtain ⟨p, q, rfl⟩ : ∃ (p : Fin 5000) (q : Fin 128), j = ix2 p q := ⟨j 0, j 1, eq_ix2 j⟩
  have hp : p.val < 5000 := p.isLt
  let r : Fin 50000 := ⟨5000 * t.val + p.val, by omega⟩
  have hemb : ((cfg2.win 2).blk t).view.emb (ix2 p q) = (ix2 r q : S50000x128.Idx) := by
    funext a
    apply Fin.ext
    match a with
    | ⟨0, _⟩ => show win2_2.index t (0 : Fin 2) * 5000 + 1 * p.val = 5000 * t.val + p.val; rw [e4]; omega
    | ⟨1, _⟩ => show win2_2.index t (1 : Fin 2) * 128 + 1 * q.val = q.val; rw [e5]; omega
  show k2_pay1 (iblk2 V c 0 t) (iblk2 V c 1 t) (ix2 p q) = matProd _ _ (((cfg2.win 2).blk t).view.emb (ix2 p q))
  rw [hemb, matProd_apply]
  refine (pay_apply _ _ p q).trans (Finset.sum_congr rfl fun k _ => ?_)
  rw [lhs_block V c t p k r rfl, rhs_block V c t k q]

/-- An index of the output array is in point `t`'s block iff its row is among the block's rows. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v70).slice (win2_2.rect t)).set ↔ _
  rw [View.set_slice_whole, Rect.mem_set_unit]
  exact Iff.rfl

/-- The output array after the launch is the product of the two arrays as the launch found them. -/
theorem product (c : Dev nD) :
    (dat2 V c).arrAt 2 cfg2.N = matProd (V c main_v69 : S50000x256.Idx → EReal) (V c main_arg6 : S256x128.Idx → EReal) :=
  (dat2 V c).arrAt_eq_of_cover 2 _ (fun t _ => flushed_eq V c t) fun i => by
    have hi0 : (i 0).val < 50000 := (i 0).isLt
    have hi1 : (i 1).val < 128 := (i 1).isLt
    let t : Fin cfg2.N := ⟨(i 0).val / 5000, by rw [N_eq]; omega⟩
    obtain ⟨-, -, -, -, e4, e5⟩ := idx_facts t
    refine ⟨t, flush2_2 t, ?_⟩
    rw [mem_blk]
    intro a
    match a with
    | ⟨0, _⟩ => show win2_2.index t (0 : Fin 2) * 5000 ≤ (i 0).val ∧ (i 0).val < win2_2.index t (0 : Fin 2) * 5000 + 5000; rw [e4]; show (i 0).val / 5000 * 5000 ≤ _ ∧ _ < (i 0).val / 5000 * 5000 + 5000; omega
    | ⟨1, _⟩ => show win2_2.index t (1 : Fin 2) * 128 ≤ (i 1).val ∧ (i 1).val < win2_2.index t (1 : Fin 2) * 128 + 128; rw [e5]; omega

end Cert.KernelIdeal.Project2

end
-- ==== Proof.KernelChain.lean ====
/-
  The whole program's result as a term of the arguments.

  Between the three launches the program runs the graph side of each layer on the host. Read back through the buffer
  contents at each boundary: the edge quantities are computed once, before the first launch, and no later operation
  or launch writes them; each launch leaves in its output array the product of the activations it was entered with
  and its weights; each host stretch after a launch is the layer's graph side of that product. So the result is
  `layer₃ (layer₂ (layer₁ (x · W₁) · W₂) · W₃)`, each layer with the same edge quantities and its own bias.
-/
import proofs.«158755_j67774583931071_1_alg».proof.Proof.Gen.KernelIdeal.Frame
import proofs.«158755_j67774583931071_1_alg».proof.Proof.HostLayers
import proofs.«158755_j67774583931071_1_alg».proof.Proof.Model
import proofs.«158755_j67774583931071_1_alg».proof.Proof.Project0
import proofs.«158755_j67774583931071_1_alg».proof.Proof.Project1
import proofs.«158755_j67774583931071_1_alg».proof.Proof.Project2
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.Layers Cert.Hand

section Host

variable {F : FTy → Type} [FloatOps F]
variable (U : Valuation τ sig (Elt F))

/-! ## The host operations before the first launch: the edge quantities -/

theorem pre_src : after hostOps0 U (Proc.devRef .tc main_v1) = edgeSrc (U (Proc.devRef .tc main_arg1)) := by
  after_results_simp <;> rfl

theorem pre_dst : after hostOps0 U (Proc.devRef .tc main_v3) = edgeDst (U (Proc.devRef .tc main_arg1)) := by
  after_results_simp <;> rfl

theorem pre_en : after hostOps0 U (Proc.devRef .tc main_v25)
    = edgeNorm (edgeSrc (U (Proc.devRef .tc main_arg1))) (edgeDst (U (Proc.devRef .tc main_arg1))) := by
  after_results_simp <;> rfl

theorem pre_sn : after hostOps0 U (Proc.devRef .tc main_v27) = selfNorm (edgeDst (U (Proc.devRef .tc main_arg1))) := by
  after_results_simp <;> rfl

/-- They write no argument. -/
theorem pre_keep :
    after hostOps0 U (Proc.devRef .tc main_arg0) = U (Proc.devRef .tc main_arg0)
    ∧ after hostOps0 U (Proc.devRef .tc main_arg2) = U (Proc.devRef .tc main_arg2)
    ∧ after hostOps0 U (Proc.devRef .tc main_arg3) = U (Proc.devRef .tc main_arg3)
    ∧ after hostOps0 U (Proc.devRef .tc main_arg4) = U (Proc.devRef .tc main_arg4)
    ∧ after hostOps0 U (Proc.devRef .tc main_arg5) = U (Proc.devRef .tc main_arg5)
    ∧ after hostOps0 U (Proc.devRef .tc main_arg6) = U (Proc.devRef .tc main_arg6)
    ∧ after hostOps0 U (Proc.devRef .tc main_arg7) = U (Proc.devRef .tc main_arg7) :=
  ⟨by after_results_simp <;> rfl, by after_results_simp <;> rfl, by after_results_simp <;> rfl,
   by after_results_simp <;> rfl, by after_results_simp <;> rfl, by after_results_simp <;> rfl,
   by after_results_simp <;> rfl⟩

/-! ## The host operations after the first launch: the first layer's graph side -/

theorem layer1 : after hostOps1_1 (after hostOps1 U) (Proc.devRef .tc main_v48)
    = layer256 (U (Proc.devRef .tc main_v28)) (U (Proc.devRef .tc main_v1)) (U (Proc.devRef .tc main_v3))
        (U (Proc.devRef .tc main_v25)) (U (Proc.devRef .tc main_v27)) (U (Proc.devRef .tc main_arg3)) := by
  after_results_simp <;> rfl

/-- They write neither an edge quantity nor an argument. -/
theorem layer1_keep :
    after hostOps1_1 (after hostOps1 U) (Proc.devRef .tc main_v1) = U (Proc.devRef .tc main_v1)
    ∧ after hostOps1_1 (after hostOps1 U) (Proc.devRef .tc main_v3) = U (Proc.devRef .tc main_v3)
    ∧ after hostOps1_1 (after hostOps1 U) (Proc.devRef .tc main_v25) = U (Proc.devRef .tc main_v25)
    ∧ after hostOps1_1 (after hostOps1 U) (Proc.devRef .tc main_v27) = U (Proc.devRef .tc main_v27)
    ∧ after hostOps1_1 (after hostOps1 U) (Proc.devRef .tc main_arg4) = U (Proc.devRef .tc main_arg4)
    ∧ after hostOps1_1 (after hostOps1 U) (Proc.devRef .tc main_arg5) = U (Proc.devRef .tc main_arg5)
    ∧ after hostOps1_1 (after hostOps1 U) (Proc.devRef .tc main_arg6) = U (Proc.devRef .tc main_arg6)
    ∧ after hostOps1_1 (after hostOps1 U) (Proc.devRef .tc main_arg7) = U (Proc.devRef .tc main_arg7) :=
  ⟨by after_results_simp <;> rfl, by after_results_simp <;> rfl, by after_results_simp <;> rfl,
   by after_results_simp <;> rfl, by after_results_simp <;> rfl, by after_results_simp <;> rfl,
   by after_results_simp <;> rfl, by after_results_simp <;> rfl⟩

/-! ## The host operations after the second launch: the second layer's graph side -/

theorem layer2 : after hostOps2_1 (after hostOps2 U) (Proc.devRef .tc main_v69)
    = layer256 (U (Proc.devRef .tc main_v49)) (U (Proc.devRef .tc main_v1)) (U (Proc.devRef .tc main_v3))
        (U (Proc.devRef .tc main_v25)) (U (Proc.devRef .tc main_v27)) (U (Proc.devRef .tc main_arg5)) := by
  after_results_simp <;> rfl

/-- They write neither an edge quantity nor an argument. -/
theorem layer2_keep :
    after hostOps2_1 (after hostOps2 U) (Proc.devRef .tc main_v1) = U (Proc.devRef .tc main_v1)
    ∧ after hostOps2_1 (after hostOps2 U) (Proc.devRef .tc main_v3) = U (Proc.devRef .tc main_v3)
    ∧ after hostOps2_1 (after hostOps2 U) (Proc.devRef .tc main_v25) = U (Proc.devRef .tc main_v25)
    ∧ after hostOps2_1 (after hostOps2 U) (Proc.devRef .tc main_v27) = U (Proc.devRef .tc main_v27)
    ∧ after hostOps2_1 (after hostOps2 U) (Proc.devRef .tc main_arg6) = U (Proc.devRef .tc main_arg6)
    ∧ after hostOps2_1 (after hostOps2 U) (Proc.devRef .tc main_arg7) = U (Proc.devRef .tc main_arg7) :=
  ⟨by after_results_simp <;> rfl, by after_results_simp <;> rfl, by after_results_simp <;> rfl,
   by after_results_simp <;> rfl, by after_results_simp <;> rfl, by after_results_simp <;> rfl⟩

/-! ## The host operations after the third launch: the third layer's graph side -/

theorem layer3 : after hostOps3_1 (after hostOps3 U) (Proc.devRef .tc main_v90)
    = layer128 (U (Proc.devRef .tc main_v70)) (U (Proc.devRef .tc main_v1)) (U (Proc.devRef .tc main_v3))
        (U (Proc.devRef .tc main_v25)) (U (Proc.devRef .tc main_v27)) (U (Proc.devRef .tc main_arg7)) := by
  after_results_simp <;> rfl

end Host

section Run

variable (m : (ℓ : Loc nD τ sig) → Buf (Elt Ideal) ℓ) (ρ : Dev nD → PrngReg)

/-- The four edge quantities, in their buffers, as functions of the launched edge list. -/
def EdgeQ (c : Dev nD) (U : Valuation τ sig (Elt Ideal)) : Prop :=
  U (Proc.devRef .tc main_v1) = edgeSrc (m ((c : Thread nD τ).loc main_arg1))
  ∧ U (Proc.devRef .tc main_v3) = edgeDst (m ((c : Thread nD τ).loc main_arg1))
  ∧ U (Proc.devRef .tc main_v25)
      = edgeNorm (edgeSrc (m ((c : Thread nD τ).loc main_arg1))) (edgeDst (m ((c : Thread nD τ).loc main_arg1)))
  ∧ U (Proc.devRef .tc main_v27) = selfNorm (edgeDst (m ((c : Thread nD τ).loc main_arg1)))

/-! ### Entering the first launch -/

theorem edge1 (c : Dev nD) : EdgeQ m c (W1 m ρ c) :=
  ⟨pre_src (W0 m ρ c), pre_dst (W0 m ρ c), pre_en (W0 m ρ c), pre_sn (W0 m ρ c)⟩

theorem args1 (c : Dev nD) :
    W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) :=
  pre_keep (W0 m ρ c)

/-! ### Leaving the first launch -/

theorem edge2 (c : Dev nD) : EdgeQ m c (W2 m ρ c) := by
  obtain ⟨h1, h3, h25, h27⟩ := edge1 m ρ c
  exact ⟨(W2_of_ne m ρ c main_v1 (by decide)).trans h1, (W2_of_ne m ρ c main_v3 (by decide)).trans h3,
    (W2_of_ne m ρ c main_v25 (by decide)).trans h25, (W2_of_ne m ρ c main_v27 (by decide)).trans h27⟩

theorem args2 (c : Dev nD) :
    W2 m ρ c (Proc.devRef .tc main_arg3) = m ((c : Thread nD τ).loc main_arg3)
    ∧ W2 m ρ c (Proc.devRef .tc main_arg4) = m ((c : Thread nD τ).loc main_arg4)
    ∧ W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_arg7) = m ((c : Thread nD τ).loc main_arg7) := by
  obtain ⟨-, -, a3, a4, a5, a6, a7⟩ := args1 m ρ c
  exact ⟨(W2_of_ne m ρ c main_arg3 (by decide)).trans a3, (W2_of_ne m ρ c main_arg4 (by decide)).trans a4,
    (W2_of_ne m ρ c main_arg5 (by decide)).trans a5, (W2_of_ne m ρ c main_arg6 (by decide)).trans a6,
    (W2_of_ne m ρ c main_arg7 (by decide)).trans a7⟩

/-- The first launch's output: the features times the first weights. -/
theorem proj1 (c : Dev nD) : W2 m ρ c (Proc.devRef .tc main_v28)
    = matProd (M := 50000) (K := 128) (N := 256) (m ((c : Thread nD τ).loc main_arg0)) (m ((c : Thread nD τ).loc main_arg2)) := by
  obtain ⟨a0, a2, -⟩ := args1 m ρ c
  refine (W2_arr m ρ c 2).trans ((Project0.product (V1 m ρ) c).trans ?_)
  show matProd (W1 m ρ c (Proc.devRef .tc main_arg0)) (W1 m ρ c (Proc.devRef .tc main_arg2)) = _
  rw [a0, a2]

/-! ### Entering the second launch -/

theorem edge4 (c : Dev nD) : EdgeQ m c (W4 m ρ c) := by
  obtain ⟨h1, h3, h25, h27⟩ := edge2 m ρ c
  obtain ⟨k1, k3, k25, k27, -⟩ := layer1_keep (W2 m ρ c)
  exact ⟨k1.trans h1, k3.trans h3, k25.trans h25, k27.trans h27⟩

theorem args4 (c : Dev nD) :
    W4 m ρ c (Proc.devRef .tc main_arg4) = m ((c : Thread nD τ).loc main_arg4)
    ∧ W4 m ρ c (Proc.devRef .tc main_arg5) = m ((c : Thread nD τ).loc main_arg5)
    ∧ W4 m ρ c (Proc.devRef .tc main_arg6) = m ((c : Thread nD τ).loc main_arg6)
    ∧ W4 m ρ c (Proc.devRef .tc main_arg7) = m ((c : Thread nD τ).loc main_arg7) := by
  obtain ⟨-, a4, a5, a6, a7⟩ := args2 m ρ c
  obtain ⟨-, -, -, -, k4, k5, k6, k7⟩ := layer1_keep (W2 m ρ c)
  exact ⟨k4.trans a4, k5.trans a5, k6.trans a6, k7.trans a7⟩

/-- The first layer's output, as the second launch finds it. -/
theorem act1 (c : Dev nD) : W4 m ρ c (Proc.devRef .tc main_v48)
    = layer256 (matProd (M := 50000) (K := 128) (N := 256) (m ((c : Thread nD τ).loc main_arg0)) (m ((c : Thread nD τ).loc main_arg2)))
        (edgeSrc (m ((c : Thread nD τ).loc main_arg1))) (edgeDst (m ((c : Thread nD τ).loc main_arg1)))
        (edgeNorm (edgeSrc (m ((c : Thread nD τ).loc main_arg1))) (edgeDst (m ((c : Thread nD τ).loc main_arg1))))
        (selfNorm (edgeDst (m ((c : Thread nD τ).loc main_arg1)))) (m ((c : Thread nD τ).loc main_arg3)) := by
  obtain ⟨h1, h3, h25, h27⟩ := edge2 m ρ c
  obtain ⟨a3, -⟩ := args2 m ρ c
  refine (layer1 (W2 m ρ c)).trans ?_
  rw [proj1 m ρ c, h1, h3, h25, h27, a3]

/-! ### Leaving the second launch -/

theorem edge5 (c : Dev nD) : EdgeQ m c (W5 m ρ c) := by
  obtain ⟨h1, h3, h25, h27⟩ := edge4 m ρ c
  exact ⟨(W5_of_ne m ρ c main_v1 (by decide)).trans h1, (W5_of_ne m ρ c main_v3 (by decide)).trans h3,
    (W5_of_ne m ρ c main_v25 (by decide)).trans h25, (W5_of_ne m ρ c main_v27 (by decide)).trans h27⟩

theorem args5 (c : Dev nD) :
    W5 m ρ c (Proc.devRef .tc main_arg5) = m ((c : Thread nD τ).loc main_arg5)
    ∧ W5 m ρ c (Proc.devRef .tc main_arg6) = m ((c : Thread nD τ).loc main_arg6)
    ∧ W5 m ρ c (Proc.devRef .tc main_arg7) = m ((c : Thread nD τ).loc main_arg7) := by
  obtain ⟨-, a5, a6, a7⟩ := args4 m ρ c
  exact ⟨(W5_of_ne m ρ c main_arg5 (by decide)).trans a5, (W5_of_ne m ρ c main_arg6 (by decide)).trans a6,
    (W5_of_ne m ρ c main_arg7 (by decide)).trans a7⟩

/-- The second launch's output: the first layer's output times the second weights. -/
theorem proj2 (c : Dev nD) : W5 m ρ c (Proc.devRef .tc main_v49)
    = matProd (M := 50000) (K := 256) (N := 256) (W4 m ρ c (Proc.devRef .tc main_v48)) (m ((c : Thread nD τ).loc main_arg4)) := by
  obtain ⟨a4, -⟩ := args4 m ρ c
  refine (W5_arr m ρ c 2).trans ((Project1.product (V4 m ρ) c).trans ?_)
  show matProd (W4 m ρ c (Proc.devRef .tc main_v48)) (W4 m ρ c (Proc.devRef .tc main_arg4)) = _
  rw [a4]

/-! ### Entering the third launch -/

theorem edge7 (c : Dev nD) : EdgeQ m c (W7 m ρ c) := by
  obtain ⟨h1, h3, h25, h27⟩ := edge5 m ρ c
  obtain ⟨k1, k3, k25, k27, -⟩ := layer2_keep (W5 m ρ c)
  exact ⟨k1.trans h1, k3.trans h3, k25.trans h25, k27.trans h27⟩

theorem args7 (c : Dev nD) :
    W7 m ρ c (Proc.devRef .tc main_arg6) = m ((c : Thread nD τ).loc main_arg6)
    ∧ W7 m ρ c (Proc.devRef .tc main_arg7) = m ((c : Thread nD τ).loc main_arg7) := by
  obtain ⟨-, a6, a7⟩ := args5 m ρ c
  obtain ⟨-, -, -, -, k6, k7⟩ := layer2_keep (W5 m ρ c)
  exact ⟨k6.trans a6, k7.trans a7⟩

/-- The second layer's output, as the third launch finds it. -/
theorem act2 (c : Dev nD) : W7 m ρ c (Proc.devRef .tc main_v69)
    = layer256 (W5 m ρ c (Proc.devRef .tc main_v49))
        (edgeSrc (m ((c : Thread nD τ).loc main_arg1))) (edgeDst (m ((c : Thread nD τ).loc main_arg1)))
        (edgeNorm (edgeSrc (m ((c : Thread nD τ).loc main_arg1))) (edgeDst (m ((c : Thread nD τ).loc main_arg1))))
        (selfNorm (edgeDst (m ((c : Thread nD τ).loc main_arg1)))) (m ((c : Thread nD τ).loc main_arg5)) := by
  obtain ⟨h1, h3, h25, h27⟩ := edge5 m ρ c
  obtain ⟨a5, -⟩ := args5 m ρ c
  refine (layer2 (W5 m ρ c)).trans ?_
  rw [h1, h3, h25, h27, a5]

/-! ### Leaving the third launch -/

theorem edge8 (c : Dev nD) : EdgeQ m c (W8 m ρ c) := by
  obtain ⟨h1, h3, h25, h27⟩ := edge7 m ρ c
  exact ⟨(W8_of_ne m ρ c main_v1 (by decide)).trans h1, (W8_of_ne m ρ c main_v3 (by decide)).trans h3,
    (W8_of_ne m ρ c main_v25 (by decide)).trans h25, (W8_of_ne m ρ c main_v27 (by decide)).trans h27⟩

theorem args8 (c : Dev nD) : W8 m ρ c (Proc.devRef .tc main_arg7) = m ((c : Thread nD τ).loc main_arg7) :=
  (W8_of_ne m ρ c main_arg7 (by decide)).trans (args7 m ρ c).2

/-- The third launch's output: the second layer's output times the third weights. -/
theorem proj3 (c : Dev nD) : W8 m ρ c (Proc.devRef .tc main_v70)
    = matProd (M := 50000) (K := 256) (N := 128) (W7 m ρ c (Proc.devRef .tc main_v69)) (m ((c : Thread nD τ).loc main_arg6)) := by
  obtain ⟨a6, -⟩ := args7 m ρ c
  refine (W8_arr m ρ c 2).trans ((Project2.product (V7 m ρ) c).trans ?_)
  show matProd (W7 m ρ c (Proc.devRef .tc main_v69)) (W7 m ρ c (Proc.devRef .tc main_arg6)) = _
  rw [a6]

/-! ### The result -/

/-- What the program returns: the three layers applied in turn to the launched arguments. -/
theorem result (c : Dev nD) : W10 m ρ c (Proc.devRef .tc main_v90)
    = gcn (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  obtain ⟨h1, h3, h25, h27⟩ := edge8 m ρ c
  refine (layer3 (W8 m ρ c)).trans ?_
  rw [proj3 m ρ c, act2 m ρ c, proj2 m ρ c, act1 m ρ c, h1, h3, h25, h27, args8 m ρ c]
  rfl

end Run

end Cert.KernelIdeal.Chain

end
-- ==== Proof.RefValue.lean ====
/-
  The reference's result as the same term: three layers, each the host product of its input with its weights
  followed by the layer's graph side.

  The reference prints, operation for operation, the host operations the kernel's program prints around its launches,
  and a host product where the kernel's program launches. Its result, read one operation at a time, is therefore the
  three layers applied in turn, over the same edge quantities; and on the extended reals each host product is the
  matrix product, element by element.
-/
import proofs.«158755_j67774583931071_1_alg».proof.Proof.Gen.ReferenceIdeal.Run
import proofs.«158755_j67774583931071_1_alg».proof.Proof.Gen.ReferenceIdeal.Read
import proofs.«158755_j67774583931071_1_alg».proof.Proof.HostLayers
import proofs.«158755_j67774583931071_1_alg».proof.Proof.Model

set_option maxRecDepth 16384

noncomputable section

open Idealize.ShloMosaic Idealize.ShloMosaic.TcCoe Idealize.SL.Sem

namespace Cert.ReferenceIdeal.RefValue

open Cert.ReferenceIdeal Cert.ReferenceIdeal.Read Cert.KernelIdeal.Layers Cert.Hand

section Stages

variable {F : FTy → Type} [FloatOps F]

variable (x0 : (⟨S50000x128, .f32⟩ : BufTy).Contents (Elt F)) (x1 : (⟨S2x800000, .i32⟩ : BufTy).Contents (Elt F))
  (x2 : (⟨S128x256, .f32⟩ : BufTy).Contents (Elt F)) (x3 : (⟨S256, .f32⟩ : BufTy).Contents (Elt F))
  (x4 : (⟨S256x256, .f32⟩ : BufTy).Contents (Elt F)) (x5 : (⟨S256, .f32⟩ : BufTy).Contents (Elt F))
  (x6 : (⟨S256x128, .f32⟩ : BufTy).Contents (Elt F)) (x7 : (⟨S128, .f32⟩ : BufTy).Contents (Elt F))

/-! ## The edge quantities -/

theorem src_eq : val_main_v1 (F := F) x1 = edgeSrc x1 := rfl
theorem dst_eq : val_main_v3 (F := F) x1 = edgeDst x1 := rfl
theorem en_eq : val_main_v25 (F := F) x1 = edgeNorm (edgeSrc x1) (edgeDst x1) := rfl
theorem sn_eq : val_main_v27 (F := F) x1 = selfNorm (edgeDst x1) := rfl

/-! ## The three layers' graph sides -/

theorem layer1_eq : val_main_v48 (F := F) x0 x1 x2 x3
    = layer256 (val_main_v28 (F := F) x0 x2) (edgeSrc x1) (edgeDst x1) (edgeNorm (edgeSrc x1) (edgeDst x1)) (selfNorm (edgeDst x1)) x3 := rfl

theorem layer2_eq : val_main_v69 (F := F) x0 x1 x2 x3 x4 x5
    = layer256 (val_main_v49 (F := F) x0 x1 x2 x3 x4) (edgeSrc x1) (edgeDst x1) (edgeNorm (edgeSrc x1) (edgeDst x1)) (selfNorm (edgeDst x1)) x5 := rfl

theorem layer3_eq : val_main_v90 (F := F) x0 x1 x2 x3 x4 x5 x6 x7
    = layer128 (val_main_v70 (F := F) x0 x1 x2 x3 x4 x5 x6) (edgeSrc x1) (edgeDst x1) (edgeNorm (edgeSrc x1) (edgeDst x1)) (selfNorm (edgeDst x1)) x7 := rfl

end Stages

section Ideal

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x128, .f32⟩ : BufTy).Contents (Elt Ideal)) (x7 : (⟨S128, .f32⟩ : BufTy).Contents (Elt Ideal))

/-! ## The three host products, on the extended reals -/

theorem prod1 : val_main_v28 (F := Ideal) x0 x2 = matProd (M := 50000) (K := 128) (N := 256) x0 x2 :=
  dotGeneral_eq_matProd (M := 50000) (K := 128) (N := 256) dot_S50000x128_S128x256_S50000x256_1_0_0_1_n_n
    rfl rfl rfl rfl rfl rfl rfl rfl none x0 x2

theorem prod2 : val_main_v49 (F := Ideal) x0 x1 x2 x3 x4
    = matProd (M := 50000) (K := 256) (N := 256) (val_main_v48 (F := Ideal) x0 x1 x2 x3) x4 :=
  dotGeneral_eq_matProd (M := 50000) (K := 256) (N := 256) dot_S50000x256_S256x256_S50000x256_1_0_0_1_n_n
    rfl rfl rfl rfl rfl rfl rfl rfl none _ x4

theorem prod3 : val_main_v70 (F := Ideal) x0 x1 x2 x3 x4 x5 x6
    = matProd (M := 50000) (K := 256) (N := 128) (val_main_v69 (F := Ideal) x0 x1 x2 x3 x4 x5) x6 :=
  dotGeneral_eq_matProd (M := 50000) (K := 256) (N := 128) dot_S50000x256_S256x128_S50000x128_1_0_0_1_n_n
    rfl rfl rfl rfl rfl rfl rfl rfl none _ x6

/-- The reference's last stage is the three layers applied in turn. -/
theorem stage_eq : val_main_v90 (F := Ideal) x0 x1 x2 x3 x4 x5 x6 x7 = gcn x0 x1 x2 x3 x4 x5 x6 x7 := by
  rw [layer3_eq, prod3, layer2_eq, prod2, layer1_eq, prod1]
  rfl

end Ideal

/-- What the reference returns: the three layers applied in turn to the launched arguments. -/
theorem result (m : (ℓ : Loc nD τ sig) → Buf (Elt Ideal) ℓ) (c : Dev nD) :
    Cert.ReferenceIdeal.Value.res_main_v90 (F := Ideal) m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v90_eq (F := Ideal) m c).trans (stage_eq _ _ _ _ _ _ _ _)

end Cert.ReferenceIdeal.RefValue

end
-- ==== Proof.lean ====
/-
  Three graph-convolution layers over 50000 nodes and 800000 edges: the program that projects each layer's input with
  a tiled matrix-product launch, against the reference that projects it with a host matrix product.

  Both programs compute from the edge list the same edge quantities (end nodes, inverse square roots of the degrees,
  edge weights, self-loop weights) and apply to each projected feature matrix the same graph side (gather the source
  rows, scale by the edge weights, add into the destination rows, add the self loop and the bias, clamp at zero). They
  differ only in the projection: each launch multiplies ten blocks of 5000 rows by the whole weight matrix into a zero
  accumulator, the reference multiplies all rows at once. On the extended reals both are the matrix product, element
  by element the sum over the contracted axis of the products (the roundings to bf16 before the multiplier are the
  identity there), so the two results are one function of the arguments, `Layers.gcn`. No law beyond that is used, so
  the finiteness of the inputs is never opened.

  The frames of the two launched programs are the generated ones; the reference's frame is its generated run with the
  result dropped; the ideal pass rewrote nothing, so the idealization claim is trivial.
-/
import proofs.«158755_j67774583931071_1_alg».proof.Defs
import proofs.«158755_j67774583931071_1_alg».proof.Proof.Gen.Kernel
import proofs.«158755_j67774583931071_1_alg».proof.Proof.Gen.Kernel.Skeleton
import proofs.«158755_j67774583931071_1_alg».proof.Proof.Gen.Kernel.Launch
import proofs.«158755_j67774583931071_1_alg».proof.Proof.Gen.Kernel.Points
import proofs.«158755_j67774583931071_1_alg».proof.Proof.Gen.Kernel.Frame
import proofs.«158755_j67774583931071_1_alg».proof.Proof.Gen.KernelIdeal
import proofs.«158755_j67774583931071_1_alg».proof.Proof.Gen.KernelIdeal.Skeleton
import proofs.«158755_j67774583931071_1_alg».proof.Proof.Gen.KernelIdeal.Launch
import proofs.«158755_j67774583931071_1_alg».proof.Proof.Gen.KernelIdeal.Points
import proofs.«158755_j67774583931071_1_alg».proof.Proof.Gen.KernelIdeal.Frame
import proofs.«158755_j67774583931071_1_alg».proof.Proof.Gen.ReferenceIdeal
import proofs.«158755_j67774583931071_1_alg».proof.Proof.Gen.ReferenceIdeal.Run
import proofs.«158755_j67774583931071_1_alg».proof.Proof.Gen.Pre_finite_inputs
import proofs.«158755_j67774583931071_1_alg».proof.Proof.KernelRun
import proofs.«158755_j67774583931071_1_alg».proof.Proof.KernelChain
import proofs.«158755_j67774583931071_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with the three layers applied in turn to
    those arguments: the launched program by its run read back through the launches and the host stretches, the
    reference by its run read one operation at a time. -/
theorem algebraic : Cert.algebraic_KernelIdeal_ReferenceIdeal := by
  intro m ρ m' ρ' _ hagree
  refine ⟨fun c => Cert.KernelIdeal.Layers.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.RefValue.result m' c, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
